-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x3x224x224 : Shape := ⟨4, ![256, 3, 224, 224]⟩
abbrev S1000x3x224x224 : Shape := ⟨4, ![1000, 3, 224, 224]⟩
abbrev S_ : Shape := ⟨0, ![]⟩

class Facts : Prop where
  bcast_S_S256x3x224x224 : S_.BroadcastsInDim S256x3x224x224 (![] : Fin 0 → Fin S256x3x224x224.rank)
  reducesTo_S256x3x224x224_S_d0_1_2_3 : S256x3x224x224.ReducesTo [0, 1, 2, 3] S_
  h_S_ : 0 < S_.numel
  bcast_S_S1000x3x224x224 : S_.BroadcastsInDim S1000x3x224x224 (![] : Fin 0 → Fin S1000x3x224x224.rank)
  reducesTo_S1000x3x224x224_S_d0_1_2_3 : S1000x3x224x224.ReducesTo [0, 1, 2, 3] S_

variable [Facts]

def fn {F : FTy → Type} [FloatOps F] (main_arg0 : FVec F S256x3x224x224 .f32) (main_arg1 : FVec F S1000x3x224x224 .f32) : IVec S_ 1 :=
  let main_v0 : FVec F S256x3x224x224 .f32 := Host.absf main_arg0
  let main_cst : FVec F S_ .f32 := constant S_ .f32 0x7F800000#32
  let main_v1 : FVec F S256x3x224x224 .f32 := broadcastInDim S256x3x224x224 ![] bcast_S_S256x3x224x224 main_cst
  let main_v2 : IVec S256x3x224x224 1 := cmpf .olt main_v0 main_v1
  let main_c : IVec S_ 1 := constantI S_ 1 1#1
  let main_v3 : IVec S_ 1 := (fun x v => Host.reduce IntOp.andi x v reducesTo_S256x3x224x224_S_d0_1_2_3 h_S_) main_v2 main_c
  let main_v4 : FVec F S1000x3x224x224 .f32 := Host.absf main_arg1
  let main_cst_0 : FVec F S_ .f32 := constant S_ .f32 0x7F800000#32
  let main_v5 : FVec F S1000x3x224x224 .f32 := broadcastInDim S1000x3x224x224 ![] bcast_S_S1000x3x224x224 main_cst_0
  let main_v6 : IVec S1000x3x224x224 1 := cmpf .olt main_v4 main_v5
  let main_c_1 : IVec S_ 1 := constantI S_ 1 1#1
  let main_v7 : IVec S_ 1 := (fun x v => Host.reduce IntOp.andi x v reducesTo_S1000x3x224x224_S_d0_1_2_3 h_S_) main_v6 main_c_1
  let main_v8 : IVec S_ 1 := andi main_v3 main_v7
  main_v8
-- ==== Kernel.lean ====
abbrev S256x3x224x224 : Shape := ⟨4, ![256, 3, 224, 224]⟩
abbrev S1000x3x224x224 : Shape := ⟨4, ![1000, 3, 224, 224]⟩
abbrev S256x150528 : Shape := ⟨2, ![256, 150528]⟩
abbrev S1000x150528 : Shape := ⟨2, ![1000, 150528]⟩
abbrev S256x1000 : Shape := ⟨2, ![256, 1000]⟩
abbrev S256x5376 : Shape := ⟨2, ![256, 5376]⟩
abbrev S1000x5376 : Shape := ⟨2, ![1000, 5376]⟩

abbrev nBuf : Space → Nat
  | .hbm => 7
  | .vmem => 6
  | .smem => 0
  | _ => 0

abbrev bufTy : (tb : Table) → Fin (tcTables nBuf tb) → BufTy
  | .hbm, ⟨0, _⟩ => ⟨S256x3x224x224, .f32⟩
  | .hbm, ⟨1, _⟩ => ⟨S1000x3x224x224, .f32⟩
  | .hbm, ⟨2, _⟩ => ⟨S256x150528, .f32⟩
  | .hbm, ⟨3, _⟩ => ⟨S256x150528, .bf16⟩
  | .hbm, ⟨4, _⟩ => ⟨S1000x150528, .f32⟩
  | .hbm, ⟨5, _⟩ => ⟨S1000x150528, .bf16⟩
  | .hbm, ⟨6, _⟩ => ⟨S256x1000, .f32⟩
  | .local _ .vmem, ⟨0, _⟩ => ⟨S256x5376, .bf16⟩
  | .local _ .vmem, ⟨1, _⟩ => ⟨S256x5376, .bf16⟩
  | .local _ .vmem, ⟨2, _⟩ => ⟨S1000x5376, .bf16⟩
  | .local _ .vmem, ⟨3, _⟩ => ⟨S1000x5376, .bf16⟩
  | .local _ .vmem, ⟨4, _⟩ => ⟨S256x1000, .f32⟩
  | .local _ .vmem, ⟨5, _⟩ => ⟨S256x1000, .f32⟩
  | _, _ => ⟨S256x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x5376 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S256x3x224x224_S256x150528 : S256x3x224x224.ShapeCasts S256x150528
  bitsLt_bf16_f32 : FTy.bits .bf16 < FTy.bits .f32
  shapeCasts_S1000x3x224x224_S1000x150528 : S1000x3x224x224.ShapeCasts S1000x150528
  inb_S256x1000_S256x1000_0_0 : ∀ a, (![0, 0] : Fin 2 → Nat) a + S256x1000.size a ≤ S256x1000.size a
  h_S256x1000 : 0 < S256x1000.numel
  shapeCasts_S256x1000_S256x1000 : S256x1000.ShapeCasts S256x1000
  inb_S256x5376_S256x5376_0_0 : ∀ a, (![0, 0] : Fin 2 → Nat) a + S256x5376.size a ≤ S256x5376.size a
  h_S256x5376 : 0 < S256x5376.numel
  shapeCasts_S256x5376_S256x5376 : S256x5376.ShapeCasts S256x5376
  inb_S1000x5376_S1000x5376_0_0 : ∀ a, (![0, 0] : Fin 2 → Nat) a + S1000x5376.size a ≤ S1000x5376.size a
  h_S1000x5376 : 0 < S1000x5376.numel
  shapeCasts_S1000x5376_S1000x5376 : S1000x5376.ShapeCasts S1000x5376
  dot_S256x5376_S1000x5376_S256x1000_1_1_0_0_n_n_wf : DotDims.WF S256x5376 S1000x5376 S256x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x5376.size a ≤ S256x150528.size a
  hwx0_0 : ∀ i : grid0.Coords, EltTy.bits .bf16 = 32 ∨ (Rect.block (s := S256x150528) S256x5376.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x5376.size a ≤ S1000x150528.size a
  hwx0_1 : ∀ i : grid0.Coords, EltTy.bits .bf16 = 32 ∨ (Rect.block (s := S1000x150528) S1000x5376.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1000.size a ≤ S256x1000.size a
  hwx0_2 : ∀ i : grid0.Coords, EltTy.bits .f32 = 32 ∨ (Rect.block (s := S256x1000) S256x1000.size (cc0_transform_2 i) (hinb0_2 i)).WholeWords (EltTy.packing .f32)

variable [Facts₀]

def dot_S256x5376_S1000x5376_S256x1000_1_1_0_0_n_n : DotDims S256x5376 S1000x5376 S256x1000 where
  lhsContracting := [1]
  rhsContracting := [1]
  lhsNonContracting := [0]
  rhsNonContracting := [0]
  lhsBatch := []
  rhsBatch := []
  wf := dot_S256x5376_S1000x5376_S256x1000_1_1_0_0_n_n_wf

abbrev win0_0 : Pipeline.Window sig grid0 :=
  Pipeline.Window.ofSpec (Memref.whole main_v1) S256x5376.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1000x5376.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x1000.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x3x224x224 : Shape := ⟨4, ![256, 3, 224, 224]⟩
abbrev S1000x3x224x224 : Shape := ⟨4, ![1000, 3, 224, 224]⟩
abbrev S256x150528 : Shape := ⟨2, ![256, 150528]⟩
abbrev S1000x150528 : Shape := ⟨2, ![1000, 150528]⟩
abbrev S256x1000 : Shape := ⟨2, ![256, 1000]⟩

abbrev nBuf : Space → Nat
  | .hbm => 5
  | .vmem => 0
  | .smem => 0
  | _ => 0

abbrev bufTy : (tb : Table) → Fin (tcTables nBuf tb) → BufTy
  | .hbm, ⟨0, _⟩ => ⟨S256x3x224x224, .f32⟩
  | .hbm, ⟨1, _⟩ => ⟨S1000x3x224x224, .f32⟩
  | .hbm, ⟨2, _⟩ => ⟨S256x150528, .f32⟩
  | .hbm, ⟨3, _⟩ => ⟨S1000x150528, .f32⟩
  | .hbm, ⟨4, _⟩ => ⟨S256x1000, .f32⟩
  | _, _ => ⟨S256x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S256x3x224x224_S256x150528 : S256x3x224x224.ShapeCasts S256x150528
  shapeCasts_S1000x3x224x224_S1000x150528 : S1000x3x224x224.ShapeCasts S1000x150528
  dot_S256x150528_S1000x150528_S256x1000_1_1_0_0_n_n_wf : DotDims.WF S256x150528 S1000x150528 S256x1000 [1] [1] [0] [0] [] []

variable [Facts₀]

def dot_S256x150528_S1000x150528_S256x1000_1_1_0_0_n_n : DotDims S256x150528 S1000x150528 S256x1000 where
  lhsContracting := [1]
  rhsContracting := [1]
  lhsNonContracting := [0]
  rhsNonContracting := [0]
  lhsBatch := []
  rhsBatch := []
  wf := dot_S256x150528_S1000x150528_S256x1000_1_1_0_0_n_n_wf

class Facts : Prop extends Facts₀ where

variable [Facts]
-- ==== Proof.PointStep.lean ====
/-
  What one grid point leaves in the accumulator and in the output block.

  The body keeps a 256 x 1000 accumulator across the grid's points. At the first point it fills the accumulator with
  zeros, reads it back, adds the product of the point's two input blocks and stores the sum; at every later point it
  reads what the point before left, adds the point's product and stores the sum. At every point it then copies the
  accumulator into the output block. So after a point both buffers hold ONE value: the accumulating step applied to
  the zero block (first point) or to what the point before left (later points) and the point's two input blocks.
-/
import proofs.«102640_j59270548685016_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Step

open Cert.KernelIdeal Cert.KernelIdeal.Gen

variable {F : FTy → Type} [FloatOps F]

theorem hz : (![0, 0] : Fin 2 → Nat) = fun _ => 0 := funext fun a => by fin_cases a <;> rfl

/-- A load of a whole buffer after a list of stores of which the LAST filled the buffer reads that last store's value,
    whatever the earlier stores were. -/
theorem readCov_cons_whole {Val : EltTy → Type} [∀ e, Nonempty (Val e)] {sg : RefSig} {κ : Kind} {sp : Space} {S : Shape}
    {e : EltTy} (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h inb, View.ld_unit_zero h inb]

/-- The accumulator after the FIRST point: the step applied to the zero block and the point's input blocks. -/
theorem acc_first (c : Dev nD) (i : grid0.Coords) (a1 : Memref sig .tc .vmem S256x5376 .bf16) (h1 : a1.IsWhole)
    (a2 : Memref sig .tc .vmem S1000x5376 .bf16) (h2 : a2.IsWhole) (a3 : Memref sig .tc .vmem S256x1000 .f32) (h3 : a3.IsWhole)
    (a4 : Memref sig .tc .vmem S256x1000 .f32) (h4 : a4.IsWhole) (hc : cond0_0 i)
    (x0 : Vec F S256x5376 .bf16) (x1 : Vec F S1000x5376 .bf16) :
    sout0_A_0 c i a1 h1 a2 h2 a3 h3 a4 h4 hc x0 x1 = k0_pay2 (k0_pay1 (F := F)) x0 x1 := by
  unfold sout0_A_0
  rw [View.read_writes_eq_canon _ _ _ (scover0_A_0 c i a1 h1 a2 h2 a3 h3 a4 h4 hc x0 x1)]
  unfold kernelRun0_A
  dsimp only
  sl_unfold_words
  rw [View.canon_cons_unit_zero (S := S256x1000) hz, View.readCov_unit_zero (S := S256x1000) _ hz]
  simp only [View.readAt_eq_ld, h1.read_unread, h2.read_unread, View.ld_unit_zero (S := S256x5376) hz,
    View.ld_unit_zero (S := S1000x5376) hz]

/-- The output block after the first point: the accumulator's value, copied. -/
theorem out_first (c : Dev nD) (i : grid0.Coords) (a1 : Memref sig .tc .vmem S256x5376 .bf16) (h1 : a1.IsWhole)
    (a2 : Memref sig .tc .vmem S1000x5376 .bf16) (h2 : a2.IsWhole) (a3 : Memref sig .tc .vmem S256x1000 .f32) (h3 : a3.IsWhole)
    (a4 : Memref sig .tc .vmem S256x1000 .f32) (h4 : a4.IsWhole) (hc : cond0_0 i)
    (x0 : Vec F S256x5376 .bf16) (x1 : Vec F S1000x5376 .bf16) :
    out0_A_2 c i a1 h1 a2 h2 a3 h3 a4 h4 hc x0 x1 = k0_pay2 (k0_pay1 (F := F)) x0 x1 := by
  unfold out0_A_2
  rw [View.read_writes_eq_canon _ _ _ (cover0_A_2 c i a1 h1 a2 h2 a3 h3 a4 h4 hc x0 x1)]
  unfold kernelRun0_A
  dsimp only
  sl_unfold_words
  rw [View.canon_unit_zero (S := S256x1000) hz, readCov_cons_whole (S := S256x1000) _ hz,
    View.readCov_unit_zero (S := S256x1000) _ hz]
  simp only [View.readAt_eq_ld, h1.read_unread, h2.read_unread, View.ld_unit_zero (S := S256x5376) hz,
    View.ld_unit_zero (S := S1000x5376) hz]

/-- The accumulator after a LATER point: the step applied to what the point before left and the point's input blocks. -/
theorem acc_next (c : Dev nD) (i : grid0.Coords) (a1 : Memref sig .tc .vmem S256x5376 .bf16) (h1 : a1.IsWhole)
    (a2 : Memref sig .tc .vmem S1000x5376 .bf16) (h2 : a2.IsWhole) (a3 : Memref sig .tc .vmem S256x1000 .f32) (h3 : a3.IsWhole)
    (a4 : Memref sig .tc .vmem S256x1000 .f32) (h4 : a4.IsWhole) (hc : ¬cond0_0 i)
    (x0 : Vec F S256x5376 .bf16) (x1 : Vec F S1000x5376 .bf16) (xs : Vec F S256x1000 .f32) :
    sout0_B_0 c i a1 h1 a2 h2 a3 h3 a4 h4 hc x0 x1 xs = k0_pay2 xs x0 x1 := by
  unfold sout0_B_0
  rw [View.read_writes_eq_canon _ _ _ (scover0_B_0 c i a1 h1 a2 h2 a3 h3 a4 h4 hc x0 x1 xs)]
  unfold kernelRun0_B
  dsimp only
  sl_unfold_words
  rw [View.canon_unit_zero (S := S256x1000) hz]
  simp only [View.readAt_eq_ld, h1.read_unread, h2.read_unread, h4.read_unread, View.ld_unit_zero (S := S256x5376) hz,
    View.ld_unit_zero (S := S1000x5376) hz, View.ld_unit_zero (S := S256x1000) hz]

/-- The output block after a later point: the accumulator's value, copied. -/
theorem out_next (c : Dev nD) (i : grid0.Coords) (a1 : Memref sig .tc .vmem S256x5376 .bf16) (h1 : a1.IsWhole)
    (a2 : Memref sig .tc .vmem S1000x5376 .bf16) (h2 : a2.IsWhole) (a3 : Memref sig .tc .vmem S256x1000 .f32) (h3 : a3.IsWhole)
    (a4 : Memref sig .tc .vmem S256x1000 .f32) (h4 : a4.IsWhole) (hc : ¬cond0_0 i)
    (x0 : Vec F S256x5376 .bf16) (x1 : Vec F S1000x5376 .bf16) (xs : Vec F S256x1000 .f32) :
    out0_B_2 c i a1 h1 a2 h2 a3 h3 a4 h4 hc x0 x1 xs = k0_pay2 xs x0 x1 := by
  unfold out0_B_2
  rw [View.read_writes_eq_canon _ _ _ (cover0_B_2 c i a1 h1 a2 h2 a3 h3 a4 h4 hc x0 x1 xs)]
  unfold kernelRun0_B
  dsimp only
  sl_unfold_words
  rw [View.canon_unit_zero (S := S256x1000) hz, View.readCov_unit_zero (S := S256x1000) _ hz]
  simp only [View.readAt_eq_ld, h1.read_unread, h2.read_unread, h4.read_unread, View.ld_unit_zero (S := S256x5376) hz,
    View.ld_unit_zero (S := S1000x5376) hz, View.ld_unit_zero (S := S256x1000) hz]

end Cert.KernelIdeal.Step

end
-- ==== Proof.PointValues.lean ====
/-
  The grid's points one after the other: what each leaves, and which entries of x and c it reads.

  Point t stages columns 5376 t .. 5376 t + 5375 of the flattened x (256 rows) and of the flattened c (1000 rows): entry
  (b, j) of its block of x is x (b, 5376 t + j), and the same for c. The flattened arrays the region finds are the host's
  reshape of each argument followed by a change of float format. After the first point the accumulator and the output
  block both hold the step applied to the zero block; after point n + 1 both hold the step applied to what point n left
  in the accumulator.
-/
import proofs.«102640_j59270548685016_1_alg».proof.Proof.Gen.KernelIdeal.Value
import proofs.«102640_j59270548685016_1_alg».proof.Proof.PointStep
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx

namespace Cert.KernelIdeal.Points

open Cert.KernelIdeal Cert.KernelIdeal.Gen

variable {F : FTy → Type} [FloatOps F]
variable (m : (ℓ : Loc nD τ sig) → Buf (Elt F) ℓ)

/-- Point t's block of the flattened x, and of the flattened c. -/
abbrev xblk (c : Dev nD) (t : Fin cfg0.N) : Vec F S256x5376 .bf16 := iblk m c 0 t
abbrev cblk (c : Dev nD) (t : Fin cfg0.N) : Vec F S1000x5376 .bf16 := iblk m c 1 t
/-- The flattened x and c as the region finds them. -/
abbrev xarr (c : Dev nD) : Vec F S256x150528 .bf16 := V m c main_v1
abbrev carr (c : Dev nD) : Vec F S1000x150528 .bf16 := V m c main_v3

/-- Point t's block of x starts at row 0 and column block t; -/
theorem x_index : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
/-- and so does its block of c. -/
theorem c_index : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)

/-- Entry (b, j) of point t's block of x is x (b, 5376 t + j). -/
theorem xblk_apply (c : Dev nD) (t : Fin cfg0.N) (b : Fin 256) (j : Fin 5376) (d : Fin 150528)
    (hd : d.val = 5376 * t.val + j.val) : xblk m c t (ix2 b j) = xarr m c (ix2 b d) := by
  show ((cfg0.win 0).blk t).view.read (Elt F) (V m c (Pipeline.arrRef spec0 0)) (ix2 b j) = _
  rw [View.read_apply]
  show V m c main_v1 _ = V m c main_v1 _
  congr 1
  funext a
  apply Fin.ext
  match a with
  | ⟨0, _⟩ => show win0_0.index t 0 * 256 + 1 * b.val = b.val; rw [(x_index t).1]; omega
  | ⟨1, _⟩ => show win0_0.index t 1 * 5376 + 1 * j.val = d.val; rw [(x_index t).2]; omega

/-- Entry (k, j) of point t's block of c is c (k, 5376 t + j). -/
theorem cblk_apply (c : Dev nD) (t : Fin cfg0.N) (k : Fin 1000) (j : Fin 5376) (d : Fin 150528)
    (hd : d.val = 5376 * t.val + j.val) : cblk m c t (ix2 k j) = carr m c (ix2 k d) := by
  show ((cfg0.win 1).blk t).view.read (Elt F) (V m c (Pipeline.arrRef spec0 1)) (ix2 k j) = _
  rw [View.read_apply]
  show V m c main_v3 _ = V m c main_v3 _
  congr 1
  funext a
  apply Fin.ext
  match a with
  | ⟨0, _⟩ => show win0_1.index t 0 * 1000 + 1 * k.val = k.val; rw [(c_index t).1]; omega
  | ⟨1, _⟩ => show win0_1.index t 1 * 5376 + 1 * j.val = d.val; rw [(c_index t).2]; omega

/-- The flattened x the region finds: the first argument reshaped to 256 rows, then narrowed. -/
theorem xarr_eq (c : Dev nD) :
    xarr m c = truncf .bf16 (shapeCast S256x150528 (m ((c : Thread nD τ).loc main_arg0)) shapeCasts_S256x3x224x224_S256x150528) bitsLt_bf16_f32 := by
  show V m c main_v1 = _
  dsimp only [Gen.V, Gen.hostOps0]; after_results; rfl

/-- The flattened c the region finds: the second argument reshaped to 1000 rows, then narrowed. -/
theorem carr_eq (c : Dev nD) :
    carr m c = truncf .bf16 (shapeCast S1000x150528 (m ((c : Thread nD τ).loc main_arg1)) shapeCasts_S1000x3x224x224_S1000x150528) bitsLt_bf16_f32 := by
  show V m c main_v3 = _
  dsimp only [Gen.V, Gen.hostOps0]; after_results; rfl

/-- After the first point the output block and the accumulator both hold the step applied to the zero block. -/
theorem outs_first (c : Dev nD) (h : 0 < cfg0.N) :
    outsAt0 m c 0 h = (k0_pay2 (k0_pay1 (F := F)) (xblk m c ⟨0, h⟩) (cblk m c ⟨0, h⟩),
      k0_pay2 (k0_pay1 (F := F)) (xblk m c ⟨0, h⟩) (cblk m c ⟨0, h⟩)) := by
  refine (outsAt0_A m c ⟨0, h⟩ rfl).trans ?_
  rw [Step.out_first, Step.acc_first]

/-- After point n + 1 both hold the step applied to what point n left in the accumulator. -/
theorem outs_next (c : Dev nD) (n : ℕ) (h : n + 1 < cfg0.N) :
    outsAt0 m c (n + 1) h = (k0_pay2 (outsAt0 m c n (Nat.lt_of_succ_lt h)).2 (xblk m c ⟨n + 1, h⟩) (cblk m c ⟨n + 1, h⟩),
      k0_pay2 (outsAt0 m c n (Nat.lt_of_succ_lt h)).2 (xblk m c ⟨n + 1, h⟩) (cblk m c ⟨n + 1, h⟩)) := by
  have hN : cfg0.N = 28 := N_0
  have hB : ¬(⟨n + 1, h⟩ : Fin cfg0.N).val % 28 = 0 := by dsimp only; omega
  refine (outsAt0_B m c ⟨n + 1, h⟩ hB).trans ?_
  rw [Step.out_next, Step.acc_next]
  rfl

/-- So after every point the output block holds what the accumulator holds. -/
theorem out_eq_acc (c : Dev nD) : ∀ (n : ℕ) (h : n < cfg0.N), (outsAt0 m c n h).1 = (outsAt0 m c n h).2
  | 0, h => by rw [outs_first]
  | n + 1, h => by rw [outs_next]

end Cert.KernelIdeal.Points

end
-- ==== Proof.StepValue.lean ====
/-
  The accumulating step, read at an entry, over the extended reals.

  The step adds to the accumulator the product of the point's block of x (256 rows of 5376) with the point's block of
  c (1000 rows of 5376), each row of the one against each row of the other: a matrix product contracting the second
  axis of both, into a zero accumulator. At entry (b, k) that product is the sum over j of xblk (b, j) * cblk (k, j),
  so the step leaves acc (b, k) plus that sum; the fill of the first point is zero at every entry.
-/
import proofs.«102640_j59270548685016_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.StepValue

open Cert.KernelIdeal Cert.KernelIdeal.Gen

/-- The left operand's kept axis (its first) reads the entry's row; -/
theorem lhs_axis0 (i : S256x1000.Idx) (q : dot_S256x5376_S1000x5376_S256x1000_1_1_0_0_n_n.contr.Idx) :
    (dot_S256x5376_S1000x5376_S256x1000_1_1_0_0_n_n.lhsIdx i q 0).val = (i 0).val := by
  unfold DotDims.lhsIdx
  rw [dif_neg (show ¬(0 : Fin S256x5376.rank) ∈ dot_S256x5376_S1000x5376_S256x1000_1_1_0_0_n_n.lhsBatch by decide), dif_pos (show (0 : Fin S256x5376.rank) ∈ dot_S256x5376_S1000x5376_S256x1000_1_1_0_0_n_n.lhsNonContracting by decide)]
  rfl
/-- its contracted axis (its second) reads the summation index. -/
theorem lhs_axis1 (i : S256x1000.Idx) (q : dot_S256x5376_S1000x5376_S256x1000_1_1_0_0_n_n.contr.Idx) :
    (dot_S256x5376_S1000x5376_S256x1000_1_1_0_0_n_n.lhsIdx i q 1).val = (q ⟨0, by decide⟩).val :=
  dot_S256x5376_S1000x5376_S256x1000_1_1_0_0_n_n.lhsIdx_val_of_single rfl i q
/-- The right operand's kept axis (its first) reads the entry's column; -/
theorem rhs_axis0 (i : S256x1000.Idx) (q : dot_S256x5376_S1000x5376_S256x1000_1_1_0_0_n_n.contr.Idx) :
    (dot_S256x5376_S1000x5376_S256x1000_1_1_0_0_n_n.rhsIdx i q 0).val = (i 1).val := by
  unfold DotDims.rhsIdx
  rw [dif_neg (show ¬(0 : Fin S1000x5376.rank) ∈ dot_S256x5376_S1000x5376_S256x1000_1_1_0_0_n_n.rhsBatch by decide), dif_pos (show (0 : Fin S1000x5376.rank) ∈ dot_S256x5376_S1000x5376_S256x1000_1_1_0_0_n_n.rhsNonContracting by decide)]
  rfl
/-- its contracted axis (its second) reads the summation index. -/
theorem rhs_axis1 (i : S256x1000.Idx) (q : dot_S256x5376_S1000x5376_S256x1000_1_1_0_0_n_n.contr.Idx) :
    (dot_S256x5376_S1000x5376_S256x1000_1_1_0_0_n_n.rhsIdx i q 1).val = (q ⟨0, by decide⟩).val :=
  dot_S256x5376_S1000x5376_S256x1000_1_1_0_0_n_n.rhsIdx_val_of_single rfl i q

/-- The product of the two blocks into a zero accumulator, at entry (b, k): the sum over j of xblk (b, j) * cblk (k, j). -/
theorem block_product (xb : FVec Ideal S256x5376 .bf16) (cb : FVec Ideal S1000x5376 .bf16) (b : Fin 256) (k : Fin 1000) :
    matmul dot_S256x5376_S1000x5376_S256x1000_1_1_0_0_n_n none xb cb (constant S256x1000 .f32 0x00000000#32) (ix2 b k)
      = ∑ j : Fin 5376, xb (ix2 b j) * cb (ix2 k j) := by
  show FloatOps.matmul dot_S256x5376_S1000x5376_S256x1000_1_1_0_0_n_n none xb cb (constant S256x1000 .f32 0x00000000#32) (ix2 b k) = _
  rw [Ideal.matmul_constant_zero_apply, ← Equiv.sum_comp (contrEquiv1 dot_S256x5376_S1000x5376_S256x1000_1_1_0_0_n_n 5376 rfl rfl).symm]
  refine Finset.sum_congr rfl fun j _ => ?_
  have hj := contrEquiv1_symm_val dot_S256x5376_S1000x5376_S256x1000_1_1_0_0_n_n 5376 rfl rfl j
  have el : dot_S256x5376_S1000x5376_S256x1000_1_1_0_0_n_n.lhsIdx (ix2 b k) ((contrEquiv1 dot_S256x5376_S1000x5376_S256x1000_1_1_0_0_n_n 5376 rfl rfl).symm j) = ix2 b j := funext fun a => Fin.ext (by
    match a with
    | ⟨0, _⟩ => exact lhs_axis0 _ _
    | ⟨1, _⟩ => exact (lhs_axis1 _ _).trans hj)
  have er : dot_S256x5376_S1000x5376_S256x1000_1_1_0_0_n_n.rhsIdx (ix2 b k) ((contrEquiv1 dot_S256x5376_S1000x5376_S256x1000_1_1_0_0_n_n 5376 rfl rfl).symm j) = ix2 k j := funext fun a => Fin.ext (by
    match a with
    | ⟨0, _⟩ => exact rhs_axis0 _ _
    | ⟨1, _⟩ => exact (rhs_axis1 _ _).trans hj)
  rw [el, er]

/-- The fill of the first point is zero at every entry. -/
theorem fill_apply (i : S256x1000.Idx) : k0_pay1 (F := Ideal) i = 0 := by
  unfold k0_pay1
  rw [shapeCast_self]
  show Ideal.ofBits .f32 0x00000000#32 = 0
  exact Ideal.ofBits_zero_f32

/-- The step at entry (b, k): the accumulator's entry plus the sum over j of xblk (b, j) * cblk (k, j). -/
theorem step_apply (acc : Vec Ideal S256x1000 .f32) (xb : Vec Ideal S256x5376 .bf16) (cb : Vec Ideal S1000x5376 .bf16)
    (b : Fin 256) (k : Fin 1000) :
    k0_pay2 (F := Ideal) acc xb cb (ix2 b k) = acc (ix2 b k) + ∑ j : Fin 5376, xb (ix2 b j) * cb (ix2 k j) := by
  unfold k0_pay2
  rw [shapeCast_self, shapeCast_self, shapeCast_self]
  show acc (ix2 b k) + matmul (F := Ideal) dot_S256x5376_S1000x5376_S256x1000_1_1_0_0_n_n none xb cb (constant S256x1000 .f32 0x00000000#32) (ix2 b k) = _
  rw [block_product]

end Cert.KernelIdeal.StepValue

end
-- ==== Proof.BlockedDot.lean ====
/-
  The product of the rows of two matrices, and its sum taken block by block.

  For x of 256 rows and c of 1000 rows, both 150528 long, entry (b, k) of the product of the rows is the sum over d of
  x (b, d) * c (k, d), in the extended reals. A sum over a range of naturals splits at any point into the sum below it
  and the sum of the next 5376 terms; only that the extended reals are a commutative monoid under addition is used, so
  nothing is asked of the entries (an infinite entry is summed like any other).
-/
import Idealize.ShloMosaic.PureOps.Ideal.Laws
import Idealize.ShloMosaic.Lib.ValueIdx

noncomputable section

namespace Cert.BlockedDot

open Idealize.ShloMosaic Idealize.ShloMosaic.ValueIdx

abbrev SX : Shape := ⟨2, ![256, 150528]⟩
abbrev SC : Shape := ⟨2, ![1000, 150528]⟩
abbrev SO : Shape := ⟨2, ![256, 1000]⟩

/-- The product of the rows: entry (b, k) is the sum over d of x (b, d) * c (k, d). -/
def rowDot (x : SX.Idx → EReal) (c : SC.Idx → EReal) : SO.Idx → EReal :=
  fun i => ∑ d : Fin 150528, x (ix2 (i 0) d) * c (ix2 (i 1) d)

/-- The d-th term of entry (b, k)'s sum as a function of every natural d: zero from the rows' length on. -/
def term (x : SX.Idx → EReal) (c : SC.Idx → EReal) (b : Fin 256) (k : Fin 1000) (d : ℕ) : EReal :=
  if h : d < 150528 then x (ix2 b ⟨d, h⟩) * c (ix2 k ⟨d, h⟩) else 0

/-- Entry (b, k) is the sum of the terms below the rows' length. -/
theorem rowDot_eq_range (x : SX.Idx → EReal) (c : SC.Idx → EReal) (b : Fin 256) (k : Fin 1000) :
    rowDot x c (ix2 b k) = ∑ d ∈ Finset.range 150528, term x c b k d := by
  rw [← Fin.sum_univ_eq_sum_range (fun d => term x c b k d) 150528]
  refine Finset.sum_congr rfl fun d _ => ?_
  unfold term
  rw [dif_pos d.isLt]

/-- The terms below s + 5376 are the terms below s and then the block of 5376 terms from s on. -/
theorem range_add_block (x : SX.Idx → EReal) (c : SC.Idx → EReal) (b : Fin 256) (k : Fin 1000) (s : ℕ)
    (hs : s + 5376 ≤ 150528) :
    ∑ d ∈ Finset.range (s + 5376), term x c b k d
      = ∑ d ∈ Finset.range s, term x c b k d
        + ∑ j : Fin 5376, x (ix2 b ⟨s + j.val, by have := j.isLt; omega⟩) * c (ix2 k ⟨s + j.val, by have := j.isLt; omega⟩) := by
  rw [Finset.sum_range_add, ← Fin.sum_univ_eq_sum_range (fun j => term x c b k (s + j)) 5376]
  congr 1
  refine Finset.sum_congr rfl fun j _ => ?_
  unfold term
  rw [dif_pos (by have := j.isLt; omega)]

end Cert.BlockedDot

end
-- ==== Proof.Accumulated.lean ====
/-
  The kernel's result: the product of the rows of the two flattened arguments.

  Over the extended reals a change of float format is the identity, so the flattened arrays the region finds are the
  arguments' reshapes themselves. After point n the accumulator's entry (b, k) is the sum of the first 5376 (n + 1) terms
  x (b, d) * c (k, d): the first point leaves zero plus its block of 5376 terms, each later point adds its own block to
  what the point before left. After the last of the 28 points that is the whole sum, all 150528 terms. The output block
  is the whole result array, it holds what the accumulator holds, and it is written back once, after the last point.
-/
import proofs.«102640_j59270548685016_1_alg».proof.Proof.PointValues
import proofs.«102640_j59270548685016_1_alg».proof.Proof.StepValue
import proofs.«102640_j59270548685016_1_alg».proof.Proof.BlockedDot

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Points Cert.KernelIdeal.StepValue Cert.BlockedDot

variable (m : (ℓ : Loc nD τ sig) → Buf (Elt Ideal) ℓ) (ρ : Dev nD → PrngReg)

/-- The first argument flattened to 256 rows, and the second to 1000 rows. -/
abbrev xflat (c : Dev nD) : SX.Idx → EReal :=
  shapeCast S256x150528 (m ((c : Thread nD τ).loc main_arg0)) shapeCasts_S256x3x224x224_S256x150528
abbrev cflat (c : Dev nD) : SC.Idx → EReal :=
  shapeCast S1000x150528 (m ((c : Thread nD τ).loc main_arg1)) shapeCasts_S1000x3x224x224_S1000x150528

/-- Over the extended reals the flattened x the region finds is the first argument's reshape; -/
theorem xarr_apply (c : Dev nD) (i : S256x150528.Idx) : xarr m c i = xflat m c i := by
  rw [xarr_eq]; rfl
/-- and the flattened c the second argument's. -/
theorem carr_apply (c : Dev nD) (i : S1000x150528.Idx) : carr m c i = cflat m c i := by
  rw [carr_eq]; rfl

/-- The terms below 5376 n, then point n's block product at entry (b, k), are the terms below 5376 (n + 1). -/
theorem point_sum (c : Dev nD) (n : ℕ) (h : n < cfg0.N) (b : Fin 256) (k : Fin 1000) :
    ∑ d ∈ Finset.range (5376 * n), term (xflat m c) (cflat m c) b k d
        + ∑ j : Fin 5376, xblk m c ⟨n, h⟩ (ix2 b j) * cblk m c ⟨n, h⟩ (ix2 k j)
      = ∑ d ∈ Finset.range (5376 * (n + 1)), term (xflat m c) (cflat m c) b k d := by
  have hN : cfg0.N = 28 := N_0
  rw [show 5376 * (n + 1) = 5376 * n + 5376 by omega, range_add_block _ _ b k (5376 * n) (by omega)]
  refine congrArg (∑ d ∈ Finset.range (5376 * n), term (xflat m c) (cflat m c) b k d + ·) ?_
  refine Finset.sum_congr rfl fun j _ => ?_
  rw [xblk_apply m c ⟨n, h⟩ b j ⟨5376 * n + j.val, by have := j.isLt; omega⟩ rfl,
    cblk_apply m c ⟨n, h⟩ k j ⟨5376 * n + j.val, by have := j.isLt; omega⟩ rfl, xarr_apply, carr_apply]

/-- After point n the accumulator's entry (b, k) is the sum of the first 5376 (n + 1) terms. -/
theorem acc_apply (c : Dev nD) : ∀ (n : ℕ) (h : n < cfg0.N) (b : Fin 256) (k : Fin 1000),
    (outsAt0 m c n h).2 (ix2 b k) = ∑ d ∈ Finset.range (5376 * (n + 1)), term (xflat m c) (cflat m c) b k d
  | 0, h, b, k => by
    refine Eq.trans ?_ (point_sum m c 0 h b k)
    rw [outs_first]
    show k0_pay2 (F := Ideal) (k0_pay1 (F := Ideal)) (xblk m c ⟨0, h⟩) (cblk m c ⟨0, h⟩) (ix2 b k) = _
    rw [step_apply, fill_apply, Nat.mul_zero, Finset.range_zero, Finset.sum_empty]
  | n + 1, h, b, k => by
    refine Eq.trans ?_ (point_sum m c (n + 1) h b k)
    rw [outs_next]
    show k0_pay2 (F := Ideal) (outsAt0 m c n _).2 (xblk m c ⟨n + 1, h⟩) (cblk m c ⟨n + 1, h⟩) (ix2 b k) = _
    rw [step_apply, acc_apply c n _ b k]

/-- The result array's contents: the product of the rows of the two flattened arguments. -/
def result (c : Dev nD) : Buf (Elt Ideal) ((c : Thread nD τ).loc main_v4) := rowDot (xflat m c) (cflat m c)

/-- After the last point the output block holds it. -/
theorem last_eq (c : Dev nD) (h : 27 < cfg0.N) : (outsAt0 m c 27 h).1 = result m c := by
  funext i
  obtain ⟨b, k, rfl⟩ : ∃ (b : Fin 256) (k : Fin 1000), i = ix2 b k := ⟨i 0, i 1, eq_ix2 i⟩
  rw [out_eq_acc, acc_apply m c 27 h b k]
  exact (rowDot_eq_range _ _ b k).symm

/-- The grid's last point. -/
theorem last_lt : 27 < cfg0.N := by rw [show cfg0.N = 28 from N_0]; decide
abbrev tLast : Fin cfg0.N := ⟨27, last_lt⟩

/-- The output's block is block (0, 0) at every point; -/
theorem out_index : ∀ (t : Fin cfg0.N) (a : Fin 2), win0_2.index t a = 0 :=
  (by decide +kernel : ∀ (t : Fin grid0.N) (a : Fin 2), win0_2.index t a = 0)

/-- The one write-back, after the last point, writes the result: the block, read through zero offsets, is the array. -/
theorem flushed_eq (c : Dev nD) (t : Fin cfg0.N) (hf : (cfg0.win 2).flush t = true) :
    (dats m 0 c).flushed 2 t = ((cfg0.win 2).blk t).view.read (Elt Ideal) (result m c) := by
  have hN : cfg0.N = 28 := N_0
  have h27 : t.val = 27 := by have := (flush0_2 t).mp hf; have := t.isLt; omega
  obtain rfl : t = tLast := Fin.ext h27
  rw [Value.flushed2]
  show (cfg0.win 2).cut (grid0.coords tLast) ((outsAt0 m c 27 last_lt).1) = _
  rw [last_eq]
  have hz' : (fun a => win0_2.index tLast a * main_v4.ty.shape.size a) = fun _ => 0 :=
    funext fun a => by rw [out_index]; exact Nat.zero_mul _
  exact (Memref.read_access_unit_zero (Elt Ideal) main_v4 hz' (fun a => by rw [congrFun hz' a]; simp) (result m c)).symm

/-- So the result array ends holding the product of the rows: the last point's block covers it. -/
theorem final (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v4).slice (win0_2.rect tLast)).set
      rw [View.set_slice_whole, Rect.mem_set_unit]
      intro a
      have h0 : (i 0 : Nat) < 256 := (i 0).isLt
      have h1 : (i 1 : Nat) < 1000 := (i 1).isLt
      match a with
      | ⟨0, _⟩ =>
        show win0_2.index tLast 0 * 256 ≤ (i 0 : Nat) ∧ (i 0 : Nat) < win0_2.index tLast 0 * 256 + 256
        rw [out_index]; omega
      | ⟨1, _⟩ =>
        show win0_2.index tLast 1 * 1000 ≤ (i 1 : Nat) ∧ (i 1 : Nat) < win0_2.index tLast 1 * 1000 + 1000
        rw [out_index]; omega⟩

/-- The run: the result array ends at the product of the rows, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Accum

end
-- ==== Proof.RefRowDot.lean ====
/-
  The reference computes the product of the rows.

  The reference flattens each argument (to 256 rows and to 1000 rows of 150528) and contracts the second axis of the one
  against the second axis of the other: at entry (b, k) the sum over d of x (b, d) * c (k, d) of the flattened arrays.
-/
import proofs.«102640_j59270548685016_1_alg».proof.Proof.Gen.ReferenceIdeal.Read
import proofs.«102640_j59270548685016_1_alg».proof.Proof.BlockedDot

noncomputable section

open Idealize.ShloMosaic Idealize.ShloMosaic.TcCoe Idealize.SL.Sem Idealize.ShloMosaic.ValueIdx

namespace Cert.ReferenceIdeal.RowDot

open Cert.ReferenceIdeal Cert.ReferenceIdeal.Gen Cert.ReferenceIdeal.Read Cert.BlockedDot

/-- The left operand is read at (the entry's row, d); -/
theorem left_index (i : S256x1000.Idx) (d : Fin 150528) :
    lidx_main_v2 i d = ix2 (n0 := 256) (n1 := 150528) (i 0) d :=
  funext fun a => Fin.ext (by match a with | ⟨0, _⟩ => rfl | ⟨1, _⟩ => rfl)
/-- the right operand at (the entry's column, d). -/
theorem right_index (i : S256x1000.Idx) (d : Fin 150528) :
    ridx_main_v2 i d = ix2 (n0 := 1000) (n1 := 150528) (i 1) d :=
  funext fun a => Fin.ext (by match a with | ⟨0, _⟩ => rfl | ⟨1, _⟩ => rfl)

/-- The reference's result is the product of the rows of its two flattened arguments. -/
theorem result_eq (x0 : (⟨S256x3x224x224, .f32⟩ : BufTy).Contents (Elt Ideal)) (x1 : (⟨S1000x3x224x224, .f32⟩ : BufTy).Contents (Elt Ideal)) :
    val_main_v2 (F := Ideal) x0 x1
      = rowDot (shapeCast S256x150528 x0 shapeCasts_S256x3x224x224_S256x150528)
          (shapeCast S1000x150528 x1 shapeCasts_S1000x3x224x224_S1000x150528) := by
  funext i
  rw [val_main_v2_apply]
  unfold rowDot val_main_v0 val_main_v1
  refine Finset.sum_congr rfl fun d _ => ?_
  rw [left_index, right_index]

end Cert.ReferenceIdeal.RowDot

end
-- ==== Proof.lean ====
/-
  The kernel computes the product of the rows of its two arguments, flattened, as the reference does.

  Both programs flatten x to 256 rows and c to 1000 rows of 150528 entries. The reference contracts the rows' axis in one
  product: entry (b, k) is the sum over d of x (b, d) * c (k, d). The kernel narrows both flattened arrays (the identity
  over the extended reals), walks 28 blocks of 5376 columns, adds each block's product of the rows into an accumulator it
  zeroed at the first block, and writes the accumulator out after the last. A sum of 150528 terms taken in 28 consecutive
  blocks of 5376 is the same sum: addition of extended reals is commutative and associative, so nothing is asked of the
  entries and the precondition is not used. The idealization rewrote nothing, so the kernel is its own idealization.
-/
import proofs.«102640_j59270548685016_1_alg».proof.Defs
import proofs.«102640_j59270548685016_1_alg».proof.Proof.Gen.Kernel
import proofs.«102640_j59270548685016_1_alg».proof.Proof.Gen.Kernel.Skeleton
import proofs.«102640_j59270548685016_1_alg».proof.Proof.Gen.Kernel.Launch
import proofs.«102640_j59270548685016_1_alg».proof.Proof.Gen.Kernel.Points
import proofs.«102640_j59270548685016_1_alg».proof.Proof.Gen.Kernel.Frame
import proofs.«102640_j59270548685016_1_alg».proof.Proof.Gen.KernelIdeal
import proofs.«102640_j59270548685016_1_alg».proof.Proof.Gen.KernelIdeal.Skeleton
import proofs.«102640_j59270548685016_1_alg».proof.Proof.Gen.KernelIdeal.Launch
import proofs.«102640_j59270548685016_1_alg».proof.Proof.Gen.KernelIdeal.Points
import proofs.«102640_j59270548685016_1_alg».proof.Proof.Gen.KernelIdeal.Frame
import proofs.«102640_j59270548685016_1_alg».proof.Proof.Gen.ReferenceIdeal
import proofs.«102640_j59270548685016_1_alg».proof.Proof.Gen.Pre_finite_inputs
import proofs.«102640_j59270548685016_1_alg».proof.Proof.Gen.KernelIdeal.Value
import proofs.«102640_j59270548685016_1_alg».proof.Proof.Gen.ReferenceIdeal.Run
import proofs.«102640_j59270548685016_1_alg».proof.Proof.Gen.ReferenceIdeal.Read
import proofs.«102640_j59270548685016_1_alg».proof.Proof.Accumulated
import proofs.«102640_j59270548685016_1_alg».proof.Proof.RefRowDot
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ
/-- So does the kernel read over the extended reals. -/
theorem frame_ki : Cert.frame_KernelIdeal := fun m ρ _ => Cert.KernelIdeal.Gen.frame m ρ
/-- The reference runs and leaves its arguments as they were: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel's result array ends at the product of the rows of the flattened arguments,
    summed block by block, and the reference's at the same product summed at once. -/
theorem algebraic : Cert.algebraic_KernelIdeal_ReferenceIdeal := by
  intro m ρ m' ρ' _ hagree
  refine ⟨fun c => Cert.KernelIdeal.Accum.result m c, Cert.KernelIdeal.Accum.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RowDot.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
